-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S2048x4096 : Shape := ⟨2, ![2048, 4096]⟩
abbrev S4096 : Shape := ⟨1, ![4096]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192 : S_.BroadcastsInDim S8192 (![] : Fin 0 → Fin S8192.rank)
  reducesTo_S8192_S_d0 : S8192.ReducesTo [0] S_
  bcast_S_S2048x4096 : S_.BroadcastsInDim S2048x4096 (![] : Fin 0 → Fin S2048x4096.rank)
  reducesTo_S2048x4096_S_d0_1 : S2048x4096.ReducesTo [0, 1] S_
  bcast_S_S4096 : S_.BroadcastsInDim S4096 (![] : Fin 0 → Fin S4096.rank)
  reducesTo_S4096_S_d0 : S4096.ReducesTo [0] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S2048x4096 .f32) (main_arg5 : FVec F S4096 .f32) (main_arg6 : FVec F S1024 .f32) (main_arg7 : FVec F S1024 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S2048x4096 .f32 := Host.absf main_arg4
  let main_cst_6 : FVec F S_ .f32 := constant S_ .f32 0x7F800000#32
  let main_v20 : FVec F S2048x4096 .f32 := broadcastInDim S2048x4096 ![] bcast_S_S2048x4096 main_cst_6
  let main_v21 : IVec S2048x4096 1 := cmpf .olt main_v19 main_v20
  let main_c_7 : IVec S_ 1 := constantI S_ 1 1#1
  let main_v22 : IVec S_ 1 := (fun x v => Host.reduce IntOp.andi x v reducesTo_S2048x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S8192x1024 .f32) (main_arg2 : FVec F S8192x1024 .f32) (main_arg3 : FVec F S8192 .f32) (main_arg4 : FVec F S2048x4096 .f32) (main_arg5 : FVec F S4096 .f32) (main_arg6 : FVec F S1024 .f32) (main_arg7 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg4 main_arg5 main_arg6 main_arg7 main_v13 main_v16
-- ==== Kernel.lean ====
abbrev S8192x1024 : Shape := ⟨2, ![8192, 1024]⟩
abbrev S8192 : Shape := ⟨1, ![8192]⟩
abbrev S2048x4096 : Shape := ⟨2, ![2048, 4096]⟩
abbrev S4096 : Shape := ⟨1, ![4096]⟩
abbrev S1024 : Shape := ⟨1, ![1024]⟩
abbrev S1024x4096 : Shape := ⟨2, ![1024, 4096]⟩
abbrev S1x4096 : Shape := ⟨2, ![1, 4096]⟩
abbrev S1x1024 : Shape := ⟨2, ![1, 1024]⟩
abbrev S8192x1 : Shape := ⟨2, ![8192, 1]⟩
abbrev S256x1024 : Shape := ⟨2, ![256, 1024]⟩
abbrev S256x1 : Shape := ⟨2, ![256, 1]⟩
abbrev S256x4096 : Shape := ⟨2, ![256, 4096]⟩
abbrev S256 : Shape := ⟨1, ![256]⟩

abbrev nBuf : Space → Nat
  | .hbm => 18
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192, .f32⟩
  | .hbm, ⟨4, _⟩ => ⟨S2048x4096, .f32⟩
  | .hbm, ⟨5, _⟩ => ⟨S4096, .f32⟩
  | .hbm, ⟨6, _⟩ => ⟨S1024, .f32⟩
  | .hbm, ⟨7, _⟩ => ⟨S1024, .f32⟩
  | .hbm, ⟨8, _⟩ => ⟨S1024x4096, .f32⟩
  | .hbm, ⟨9, _⟩ => ⟨S1024x4096, .bf16⟩
  | .hbm, ⟨10, _⟩ => ⟨S1024x4096, .f32⟩
  | .hbm, ⟨11, _⟩ => ⟨S1024x4096, .bf16⟩
  | .hbm, ⟨12, _⟩ => ⟨S1x4096, .f32⟩
  | .hbm, ⟨13, _⟩ => ⟨S1x1024, .f32⟩
  | .hbm, ⟨14, _⟩ => ⟨S1x1024, .f32⟩
  | .hbm, ⟨15, _⟩ => ⟨S8192x1, .f32⟩
  | .hbm, ⟨16, _⟩ => ⟨S8192x1024, .f32⟩
  | .hbm, ⟨17, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1, .f32⟩
  | .local _ .vmem, ⟨7, _⟩ => ⟨S256x1, .f32⟩
  | .local _ .vmem, ⟨8, _⟩ => ⟨S1024x4096, .bf16⟩
  | .local _ .vmem, ⟨9, _⟩ => ⟨S1024x4096, .bf16⟩
  | .local _ .vmem, ⟨10, _⟩ => ⟨S1x4096, .f32⟩
  | .local _ .vmem, ⟨11, _⟩ => ⟨S1x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2048x4096_S1024x4096_0_0 : S2048x4096.Slices ![0, 0] S1024x4096
  bitsLt_bf16_f32 : FTy.bits .bf16 < FTy.bits .f32
  slices_S2048x4096_S1024x4096_1024_0 : S2048x4096.Slices ![1024, 0] S1024x4096
  shapeCasts_S4096_S1x4096 : S4096.ShapeCasts S1x4096
  shapeCasts_S1024_S1x1024 : S1024.ShapeCasts S1x1024
  shapeCasts_S8192_S8192x1 : S8192.ShapeCasts S8192x1
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x1024 : S256x1.Broadcasts S256x1024
  slices_S256x4096_o0_2048_S256x1024 : S256x4096.Slices ![0, 2048] S256x1024
  slices_S256x4096_o0_3072_S256x1024 : S256x4096.Slices ![0, 3072] S256x1024
  reduces_S256x1024_S256 : S256x1024.Reduces [1] S256
  shapeCasts_S256_S256x1 : S256.ShapeCasts S256x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S8192x1.size a
  hwx0_3 : ∀ i : grid0.Coords, EltTy.bits .f32 = 32 ∨ (Rect.block (s := S8192x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x4096.size a ≤ S1024x4096.size a
  hwx0_5 : ∀ i : grid0.Coords, EltTy.bits .bf16 = 32 ∨ (Rect.block (s := S1024x4096) S1024x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S8192x1024.size a
  hwx0_9 : ∀ i : grid0.Coords, EltTy.bits .f32 = 32 ∨ (Rect.block (s := S8192x1024) S256x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x1024.size a ≤ S8192x1024.size a
  hwx0_10 : ∀ i : grid0.Coords, EltTy.bits .f32 = 32 ∨ (Rect.block (s := S8192x1024) S256x1024.size (cc0_transform_10 i) (hinb0_10 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8_0) S256x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v8_1) S256x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192 : Shape := ⟨1, ![8192]⟩
abbrev S2048x4096 : Shape := ⟨2, ![2048, 4096]⟩
abbrev S4096 : Shape := ⟨1, ![4096]⟩
abbrev S1024 : Shape := ⟨1, ![1024]⟩
abbrev S8192x2048 : Shape := ⟨2, ![8192, 2048]⟩
abbrev S8192x4096 : Shape := ⟨2, ![8192, 4096]⟩
abbrev S1x4096 : Shape := ⟨2, ![1, 4096]⟩
abbrev S_ : Shape := ⟨0, ![]⟩
abbrev S8192x1 : Shape := ⟨2, ![8192, 1]⟩
abbrev S1x1024 : Shape := ⟨2, ![1, 1024]⟩

abbrev nBuf : Space → Nat
  | .hbm => 79
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192, .f32⟩
  | .hbm, ⟨4, _⟩ => ⟨S2048x4096, .f32⟩
  | .hbm, ⟨5, _⟩ => ⟨S4096, .f32⟩
  | .hbm, ⟨6, _⟩ => ⟨S1024, .f32⟩
  | .hbm, ⟨7, _⟩ => ⟨S1024, .f32⟩
  | .hbm, ⟨8, _⟩ => ⟨S8192x2048, .f32⟩
  | .hbm, ⟨9, _⟩ => ⟨S8192x4096, .f32⟩
  | .hbm, ⟨10, _⟩ => ⟨S1x4096, .f32⟩
  | .hbm, ⟨11, _⟩ => ⟨S8192x4096, .f32⟩
  | .hbm, ⟨12, _⟩ => ⟨S8192x4096, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S1x1024, .f32⟩
  | .hbm, ⟨72, _⟩ => ⟨S8192x1024, .f32⟩
  | .hbm, ⟨73, _⟩ => ⟨S8192x1024, .f32⟩
  | .hbm, ⟨74, _⟩ => ⟨S1x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  reducesTo_S8192x1024_S8192_d1 : S8192x1024.ReducesTo [1] S8192
  h_S_ : 0 < S_.numel
  bcast_S_S8192x1 : S_.BroadcastsInDim S8192x1 (![] : Fin 0 → Fin S8192x1.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  dot_S8192x2048_S2048x4096_S8192x4096_1_0_0_1_n_n_wf : DotDims.WF S8192x2048 S2048x4096 S8192x4096 [1] [0] [0] [1] [] []

variable [Facts₀]

def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf

class Facts : Prop extends Facts₀ where

variable [Facts]
-- ==== Proof.Cell.lean ====
/-
  The mathematics both programs compute, one batch row at a time, on the extended reals.

  A batch row carries a row of the input `x`, a row of the previous hidden state `h`, a row of the previous
  cell state `c` and one forget-mask entry. The four gate pre-activations of the row are the columns
  `0 … 4095` of  x·W[0:1024] + h·W[1024:2048] + b ; the new cell state is
  σ(f)·mask·c + σ(i)·tanh(g) , normalised over the row (mean, biased variance, epsilon, scale and shift), and the
  new hidden state is σ(o)·tanh(normalised cell).

  The one law that joins the two programs is here too: a sum over the 2048 joined columns is the sum over the
  first 1024 plus the sum over the last 1024 (`sum_joined`), so the product of the joined row with the whole
  weight column is the two half products added (`gate_eq_joined`). It is a regrouping of one finite sum, so it
  holds for every extended real: no finiteness is needed.
-/
import Idealize.ShloMosaic.PureOps.Ideal
import Idealize.ShloMosaic.PureOps.Ideal.Laws
import Idealize.ShloMosaic.Lib.ValueIdx

noncomputable section

open scoped BigOperators

namespace Cert.Lstm

open Idealize.ShloMosaic Idealize.ShloMosaic.ValueIdx

/-- The row length 1024 as the f32 word the programs divide by. -/
abbrev width : EReal := Ideal.ofBits .f32 0x44800000#32
/-- The variance's epsilon as its f32 word (the same word in both programs, never evaluated). -/
abbrev eps : EReal := Ideal.ofBits .f32 0x3727C5AC#32

/-- Row `k` of the upper half of the weight matrix. -/
def up (k : Fin 1024) : Fin 2048 := ⟨k.val, by have := k.isLt; omega⟩
/-- Row `k` of the lower half of the weight matrix. -/
def lo (k : Fin 1024) : Fin 2048 := ⟨1024 + k.val, by have := k.isLt; omega⟩
/-- Column `q` of the gate block that starts at column `n`. -/
def col (n : Nat) (h : n + 1024 ≤ 4096) (q : Fin 1024) : Fin 4096 := ⟨n + q.val, by have := q.isLt; omega⟩

/-- A sum over the 2048 joined positions splits into its two halves. -/
theorem sum_joined (f : Fin 2048 → EReal) :
    ∑ k : Fin 2048, f k = ∑ k : Fin 1024, f (up k) + ∑ k : Fin 1024, f (lo k) := by
  have h := Fin.sum_univ_add (a := 1024) (b := 1024) (fun k : Fin (1024 + 1024) => f ⟨k.val, k.isLt⟩)
  exact h

/-- One gate pre-activation: the row of `x` against a column of the upper half of `W`, the row of `h` against the
    same column of the lower half, and the bias entry. -/
def gate (xr hr wx wh : Fin 1024 → EReal) (bj : EReal) : EReal :=
  (∑ k : Fin 1024, xr k * wx k + ∑ k : Fin 1024, hr k * wh k) + bj

/-- The joined row against the whole column is the same pre-activation. -/
theorem gate_eq_joined (xr hr : Fin 1024 → EReal) (w cmb : Fin 2048 → EReal) (bj : EReal)
    (hx : ∀ k, cmb (up k) = xr k) (hh : ∀ k, cmb (lo k) = hr k) :
    (∑ k : Fin 2048, cmb k * w k) + bj = gate xr hr (fun k => w (up k)) (fun k => w (lo k)) bj := by
  unfold gate
  rw [sum_joined]
  simp only [hx, hh]

/-- The four gate pre-activations of a row, column by column. -/
def gates (xr hr : Fin 1024 → EReal) (wx wh : Fin 1024 → Fin 4096 → EReal) (b : Fin 4096 → EReal) : Fin 4096 → EReal :=
  fun j => gate xr hr (fun k => wx k j) (fun k => wh k j) (b j)

/-- The cell state before normalisation: forget gate times mask times the old cell, plus input gate times candidate. -/
def cellAt (g : Fin 4096 → EReal) (fm : EReal) (cr : Fin 1024 → EReal) (q : Fin 1024) : EReal :=
  Ideal.logistic (g (col 1024 (by omega) q)) * fm * cr q
    + Ideal.logistic (g (col 0 (by omega) q)) * Ideal.tanh (g (col 2048 (by omega) q))

/-- The mean of a row. -/
def mean (v : Fin 1024 → EReal) : EReal := Ideal.div (∑ q : Fin 1024, v q) width

/-- The row's sum of squared deviations from its mean. -/
def sqDev (v : Fin 1024 → EReal) : EReal := ∑ q : Fin 1024, (v q - mean v) * (v q - mean v)

/-- Layer normalisation of a row: centred, scaled by the reciprocal root of variance plus epsilon, then scale and shift. -/
def layerNorm (v γ β : Fin 1024 → EReal) (q : Fin 1024) : EReal :=
  (v q - mean v) * Ideal.rsqrt (Ideal.div (sqDev v) width + eps) * γ q + β q

/-- The new cell state of a row. -/
def newCell (xr hr cr : Fin 1024 → EReal) (fm : EReal) (wx wh : Fin 1024 → Fin 4096 → EReal) (b : Fin 4096 → EReal)
    (γ β : Fin 1024 → EReal) : Fin 1024 → EReal :=
  layerNorm (cellAt (gates xr hr wx wh b) fm cr) γ β

/-- The new hidden state of a row: output gate times tanh of the new cell state. -/
def newHidden (xr hr cr : Fin 1024 → EReal) (fm : EReal) (wx wh : Fin 1024 → Fin 4096 → EReal) (b : Fin 4096 → EReal)
    (γ β : Fin 1024 → EReal) (q : Fin 1024) : EReal :=
  Ideal.logistic (gates xr hr wx wh b (col 3072 (by omega) q)) * Ideal.tanh (newCell xr hr cr fm wx wh b γ β q)

/-! ## The two result arrays as functions of the eight argument arrays -/

abbrev SBH : Shape := ⟨2, ![8192, 1024]⟩
abbrev SB : Shape := ⟨1, ![8192]⟩
abbrev SW : Shape := ⟨2, ![2048, 4096]⟩
abbrev SG : Shape := ⟨1, ![4096]⟩
abbrev SH : Shape := ⟨1, ![1024]⟩

/-- The new cell state array: row `i 0` of the arguments through `newCell`, read at column `i 1`. -/
def cellArr (X H C : SBH.Idx → EReal) (FM : SB.Idx → EReal) (W : SW.Idx → EReal) (B : SG.Idx → EReal)
    (Γ Β : SH.Idx → EReal) : SBH.Idx → EReal := fun i =>
  newCell (fun k => X (ix2 (i 0) k)) (fun k => H (ix2 (i 0) k)) (fun q => C (ix2 (i 0) q)) (FM (ix1 (i 0)))
    (fun k j => W (ix2 (up k) j)) (fun k j => W (ix2 (lo k) j)) (fun j => B (ix1 j))
    (fun q => Γ (ix1 q)) (fun q => Β (ix1 q)) (i 1)

/-- The new hidden state array. -/
def hiddenArr (X H C : SBH.Idx → EReal) (FM : SB.Idx → EReal) (W : SW.Idx → EReal) (B : SG.Idx → EReal)
    (Γ Β : SH.Idx → EReal) : SBH.Idx → EReal := fun i =>
  newHidden (fun k => X (ix2 (i 0) k)) (fun k => H (ix2 (i 0) k)) (fun q => C (ix2 (i 0) q)) (FM (ix1 (i 0)))
    (fun k j => W (ix2 (up k) j)) (fun k j => W (ix2 (lo k) j)) (fun j => B (ix1 j))
    (fun q => Γ (ix1 q)) (fun q => Β (ix1 q)) (i 1)

end Cert.Lstm

end
-- ==== Proof.Block.lean ====
/-
  The kernel's body on one block of 256 batch rows, read element by element on the extended reals.

  The body's values are named by the skeleton's payloads: the 256 × 4096 gate pre-activations (two matrix
  products into a zero accumulator, added, plus the broadcast bias), the cell state before normalisation, its row
  mean, its row sum of squared deviations, the normalised cell state and the hidden state. Each lemma below reads
  one of them at block row `p` and column `q` as the row-level function of Cell.lean applied to row `p` of the
  loaded blocks. A format change is the identity on extended reals, a matrix product into zero is the sum over the
  contracted axis, and a lane reduction is the sum over the row.
-/
import proofs.«139014_j58866821759063_1_alg».proof.Proof.Gen.KernelIdeal.Skeleton
import proofs.«139014_j58866821759063_1_alg».proof.Proof.Cell
import Idealize.ShloMosaic.Lib.Pipeline.Value
import Idealize.ShloMosaic.Lib.ValueIdx
import Idealize.ShloMosaic.PureOps.Ideal.Laws

noncomputable section

open scoped BigOperators

namespace Cert.Lstm.Block

open Cert.KernelIdeal Cert.KernelIdeal.Gen Idealize.ShloMosaic Idealize.ShloMosaic.ValueIdx Cert.Lstm

/-! ## Layout operations of the body at an index -/

section Layout
variable {α : Type}

/-- A [1, n] row broadcast down 256 rows reads the row's entry of the same column. -/
theorem bcast_row {n : Nat} (hn : n ≠ 1) (v : (⟨2, ![1, n]⟩ : Shape).Idx → α)
    (h : (⟨2, ![1, n]⟩ : Shape).Broadcasts ⟨2, ![256, n]⟩) (p : Fin 256) (j : Fin n) :
    broadcastTo (⟨2, ![256, n]⟩ : Shape) v h (ix2 p j) = v (ix2 0 j) :=
  broadcastTo_apply v h (ix2 p j) (ix2 0 j) (fun a => match a with
    | ⟨0, _⟩ => by show (0 : Nat) = if (1 : Nat) = 1 then 0 else _; rw [if_pos rfl]
    | ⟨1, _⟩ => by show j.val = if n = 1 then 0 else j.val; rw [if_neg hn])

/-- A [256, 1] column broadcast across 1024 columns reads the column's entry of the same row. -/
theorem bcast_col (v : (⟨2, ![256, 1]⟩ : Shape).Idx → α)
    (h : (⟨2, ![256, 1]⟩ : Shape).Broadcasts ⟨2, ![256, 1024]⟩) (p : Fin 256) (q : Fin 1024) :
    broadcastTo (⟨2, ![256, 1024]⟩ : Shape) v h (ix2 p q) = v (ix2 p 0) :=
  broadcastTo_apply v h (ix2 p q) (ix2 p 0) (fun a => match a with
    | ⟨0, _⟩ => by show p.val = if (256 : Nat) = 1 then 0 else p.val; rw [if_neg (by decide)]
    | ⟨1, _⟩ => by show (0 : Nat) = if (1 : Nat) = 1 then 0 else _; rw [if_pos rfl])

/-- A 1024-column slice of the gate block starting at column `n` reads column `n + q`. -/
theorem slice_cols (n : Nat) (hn : n + 1024 ≤ 4096) (v : (⟨2, ![256, 4096]⟩ : Shape).Idx → α)
    (h : (⟨2, ![256, 4096]⟩ : Shape).Slices ![0, n] ⟨2, ![256, 1024]⟩) (p : Fin 256) (q : Fin 1024) :
    extractStridedSlice (⟨2, ![256, 1024]⟩ : Shape) ![0, n] v h (ix2 p q) = v (ix2 p (col n hn q)) :=
  extractStridedSlice_apply ![0, n] v h (ix2 p q) (ix2 p (col n hn q)) (fun a => match a with
    | ⟨0, _⟩ => by show p.val = 0 + p.val; omega
    | ⟨1, _⟩ => by show n + q.val = n + q.val; rfl)

/-- A length-256 vector recast as a [256, 1] column reads its entry of the same row. -/
theorem cast_col (v : (⟨1, ![256]⟩ : Shape).Idx → α)
    (h : (⟨1, ![256]⟩ : Shape).ShapeCasts ⟨2, ![256, 1]⟩) (p : Fin 256) :
    shapeCast (⟨2, ![256, 1]⟩ : Shape) v h (ix2 p 0) = v (ix1 p) :=
  shapeCast_apply v h (ix2 p 0) (ix1 p) (by
    rw [Shape.rowMajor_val_one, Shape.rowMajor_val_two]
    show p.val = p.val * 1 + 0
    omega)

end Layout

/-! ## The matrix product and the row sum at an index -/

theorem lhs_0 (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
theorem lhs_1 (i : S256x4096.Idx) (q : dot_S256x1024_S1024x4096_S256x4096_1_0_0_1_n_n.contr.Idx) :
    (dot_S256x1024_S1024x4096_S256x4096_1_0_0_1_n_n.lhsIdx i q 1).val = (q ⟨0, by decide⟩).val :=
  dot_S256x1024_S1024x4096_S256x4096_1_0_0_1_n_n.lhsIdx_val_of_single rfl i q
theorem rhs_0 (i : S256x4096.Idx) (q : dot_S256x1024_S1024x4096_S256x4096_1_0_0_1_n_n.contr.Idx) :
    (dot_S256x1024_S1024x4096_S256x4096_1_0_0_1_n_n.rhsIdx i q 0).val = (q ⟨0, by decide⟩).val :=
  dot_S256x1024_S1024x4096_S256x4096_1_0_0_1_n_n.rhsIdx_val_of_single rfl i q
theorem rhs_1 (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- A block of 256 rows times a 1024 × 4096 matrix into the zero accumulator: entry (p, j) is the sum over the
    1024 contracted positions of row `p` against column `j`. -/
theorem matmul_at (A : FVec Ideal S256x1024 .bf16) (M : FVec Ideal S1024x4096 .bf16) (p : Fin 256) (j : Fin 4096) :
    matmul dot_S256x1024_S1024x4096_S256x4096_1_0_0_1_n_n none A M (constant (F := Ideal) S256x4096 .f32 0x00000000#32) (ix2 p j)
      = ∑ k : Fin 1024, A (ix2 p k) * M (ix2 k j) := by
  simp only [matmul]
  rw [Ideal.matmul_constant_zero_apply, ← Equiv.sum_comp (contrEquiv1 dot_S256x1024_S1024x4096_S256x4096_1_0_0_1_n_n 1024 rfl rfl).symm]
  refine Finset.sum_congr rfl fun k _ => ?_
  have hk := contrEquiv1_symm_val dot_S256x1024_S1024x4096_S256x4096_1_0_0_1_n_n 1024 rfl rfl k
  have el : dot_S256x1024_S1024x4096_S256x4096_1_0_0_1_n_n.lhsIdx (ix2 p j) ((contrEquiv1 dot_S256x1024_S1024x4096_S256x4096_1_0_0_1_n_n 1024 rfl rfl).symm k) = ix2 p k := funext fun a => Fin.ext (by
    match a with
    | ⟨0, _⟩ => exact lhs_0 _ _
    | ⟨1, _⟩ => exact (lhs_1 _ _).trans hk)
  have er : dot_S256x1024_S1024x4096_S256x4096_1_0_0_1_n_n.rhsIdx (ix2 p j) ((contrEquiv1 dot_S256x1024_S1024x4096_S256x4096_1_0_0_1_n_n 1024 rfl rfl).symm k) = ix2 k j := funext fun a => Fin.ext (by
    match a with
    | ⟨0, _⟩ => exact (rhs_0 _ _).trans hk
    | ⟨1, _⟩ => exact rhs_1 _ _)
  rw [el, er]

/-- The lane reduction of a 256 × 1024 block: entry `p` is the sum of row `p`. -/
theorem rowsum_at (v : FVec Ideal S256x1024 .f32) (p : Fin 256) :
    multiReduction .add [1] S256 v 0x00000000#32 reduces_S256x1024_S256 (.inl rfl) rfl (ix1 p) = ∑ q : Fin 1024, v (ix2 p q) := by
  refine (Ideal.multiReduction_add_single v 0x00000000#32 reduces_S256x1024_S256 (.inl rfl) rfl (ix1 p)).trans ?_
  refine Finset.sum_congr rfl fun q _ => congrArg v ?_
  funext a
  match a with
  | ⟨0, _⟩ => rfl
  | ⟨1, _⟩ => rfl

/-! ## The payloads at an index -/

/-- The gate pre-activations of the block: entry (p, j) is the gate of row `p` of the two input blocks against
    column `j` of the two weight halves, plus bias entry `j`. -/
theorem pay3_at (P0 P1 : FVec Ideal S256x1024 .f32) (P2 P3 : FVec Ideal S1024x4096 .bf16) (P4 : FVec Ideal S1x4096 .f32)
    (p : Fin 256) (j : Fin 4096) :
    k0_pay3 (F := Ideal) P0 P1 P2 P3 P4 (ix2 p j)
      = gate (fun k => P0 (ix2 p k)) (fun k => P1 (ix2 p k)) (fun k => P2 (ix2 k j)) (fun k => P3 (ix2 k j)) (P4 (ix2 0 j)) := by
  unfold k0_pay3 gate
  show (matmul dot_S256x1024_S1024x4096_S256x4096_1_0_0_1_n_n none (truncf .bf16 P0 bitsLt_bf16_f32) (shapeCast S1024x4096 P2 shapeCasts_S1024x4096_S1024x4096) (constant (F := Ideal) S256x4096 .f32 0x00000000#32) (ix2 p j)
      + matmul dot_S256x1024_S1024x4096_S256x4096_1_0_0_1_n_n none (truncf .bf16 P1 bitsLt_bf16_f32) (shapeCast S1024x4096 P3 shapeCasts_S1024x4096_S1024x4096) (constant (F := Ideal) S256x4096 .f32 0x00000000#32) (ix2 p j))
      + broadcastTo S256x4096 (shapeCast S1x4096 P4 shapeCasts_S1x4096_S1x4096) broadcasts_S1x4096_S256x4096 (ix2 p j) = _
  rw [matmul_at, matmul_at, shapeCast_self, shapeCast_self, shapeCast_self, bcast_row (by decide)]
  rfl

/-- The cell state before normalisation at (p, q): from the gate pre-activations of row `p`, the mask entry of row
    `p` and row `p` of the old cell state. -/
theorem pay5_at (P0 P1 : FVec Ideal S256x1024 .f32) (P2 P3 : FVec Ideal S1024x4096 .bf16) (P4 : FVec Ideal S1x4096 .f32)
    (P5 : FVec Ideal S256x1 .f32) (P6 : FVec Ideal S256x1024 .f32) (p : Fin 256) (q : Fin 1024) :
    k0_pay5 (F := Ideal) P0 P1 P2 P3 P4 P5 P6 (ix2 p q)
      = cellAt (fun j => k0_pay3 (F := Ideal) P0 P1 P2 P3 P4 (ix2 p j)) (P5 (ix2 p 0)) (fun q' => P6 (ix2 p q')) q := by
  unfold k0_pay5 cellAt
  show Ideal.logistic (extractStridedSlice S256x1024 ![0, 1024] (k0_pay3 (F := Ideal) P0 P1 P2 P3 P4) slices_S256x4096_o0_1024_S256x1024 (ix2 p q))
        * broadcastTo S256x1024 (shapeCast S256x1 P5 shapeCasts_S256x1_S256x1) broadcasts_S256x1_S256x1024 (ix2 p q) * P6 (ix2 p q)
      + Ideal.logistic (extractStridedSlice S256x1024 ![0, 0] (k0_pay3 (F := Ideal) P0 P1 P2 P3 P4) slices_S256x4096_o0_0_S256x1024 (ix2 p q))
        * Ideal.tanh (extractStridedSlice S256x1024 ![0, 2048] (k0_pay3 (F := Ideal) P0 P1 P2 P3 P4) slices_S256x4096_o0_2048_S256x1024 (ix2 p q)) = _
  rw [slice_cols 1024 (by omega), slice_cols 0 (by omega), slice_cols 2048 (by omega), bcast_col, shapeCast_self]

/-- The row mean of the cell state, kept as a [256, 1] column: entry (p, 0) is the mean of row `p`. -/
theorem pay6_at (P0 P1 : FVec Ideal S256x1024 .f32) (P2 P3 : FVec Ideal S1024x4096 .bf16) (P4 : FVec Ideal S1x4096 .f32)
    (P5 : FVec Ideal S256x1 .f32) (P6 : FVec Ideal S256x1024 .f32) (p : Fin 256) :
    k0_pay6 (F := Ideal) P0 P1 P2 P3 P4 P5 P6 (ix2 p 0)
      = mean (fun q => k0_pay5 (F := Ideal) P0 P1 P2 P3 P4 P5 P6 (ix2 p q)) := by
  unfold k0_pay6 mean
  show Ideal.div (shapeCast S256x1 (multiReduction .add [1] S256 (k0_pay5 (F := Ideal) P0 P1 P2 P3 P4 P5 P6) 0x00000000#32 reduces_S256x1024_S256 (.inl rfl) rfl) shapeCasts_S256_S256x1 (ix2 p 0)) (Ideal.ofBits .f32 0x44800000#32) = _
  rw [cast_col, rowsum_at]

/-- The row sum of squared deviations from the row mean, kept as a [256, 1] column. -/
theorem pay7_at (P0 P1 : FVec Ideal S256x1024 .f32) (P2 P3 : FVec Ideal S1024x4096 .bf16) (P4 : FVec Ideal S1x4096 .f32)
    (P5 : FVec Ideal S256x1 .f32) (P6 : FVec Ideal S256x1024 .f32) (p : Fin 256) :
    k0_pay7 (F := Ideal) P0 P1 P2 P3 P4 P5 P6 (ix2 p 0)
      = sqDev (fun q => k0_pay5 (F := Ideal) P0 P1 P2 P3 P4 P5 P6 (ix2 p q)) := by
  unfold k0_pay7 sqDev
  show shapeCast S256x1 (multiReduction .add [1] S256
      (mulf (subf (k0_pay5 (F := Ideal) P0 P1 P2 P3 P4 P5 P6) (broadcastTo S256x1024 (k0_pay6 (F := Ideal) P0 P1 P2 P3 P4 P5 P6) broadcasts_S256x1_S256x1024))
            (subf (k0_pay5 (F := Ideal) P0 P1 P2 P3 P4 P5 P6) (broadcastTo S256x1024 (k0_pay6 (F := Ideal) P0 P1 P2 P3 P4 P5 P6) broadcasts_S256x1_S256x1024)))
      0x00000000#32 reduces_S256x1024_S256 (.inl rfl) rfl) shapeCasts_S256_S256x1 (ix2 p 0) = _
  rw [cast_col, rowsum_at]
  refine Finset.sum_congr rfl fun q _ => ?_
  show (k0_pay5 (F := Ideal) P0 P1 P2 P3 P4 P5 P6 (ix2 p q) - broadcastTo S256x1024 (k0_pay6 (F := Ideal) P0 P1 P2 P3 P4 P5 P6) broadcasts_S256x1_S256x1024 (ix2 p q))
      * (k0_pay5 (F := Ideal) P0 P1 P2 P3 P4 P5 P6 (ix2 p q) - broadcastTo S256x1024 (k0_pay6 (F := Ideal) P0 P1 P2 P3 P4 P5 P6) broadcasts_S256x1_S256x1024 (ix2 p q)) = _
  rw [bcast_col, pay6_at]

/-- The normalisation of any block `v` by a mean column `μ` and a squared-deviation column `s`, with scale row `γ` and
    shift row `β`, at (p, q). -/
theorem pay1_at (v : FVec Ideal S256x1024 .f32) (μ s : FVec Ideal S256x1 .f32) (γ β : FVec Ideal S1x1024 .f32)
    (p : Fin 256) (q : Fin 1024) :
    k0_pay1 (F := Ideal) v μ s γ β (ix2 p q)
      = (v (ix2 p q) - μ (ix2 p 0)) * Ideal.rsqrt (Ideal.div (s (ix2 p 0)) width + eps) * γ (ix2 0 q) + β (ix2 0 q) := by
  unfold k0_pay1
  show (v (ix2 p q) - broadcastTo S256x1024 μ broadcasts_S256x1_S256x1024 (ix2 p q))
        * broadcastTo S256x1024 (rsqrt (addf (divf s (broadcast S256x1 (Scalar.ofBits (F := Ideal) .f32 0x44800000#32))) (broadcast S256x1 (Scalar.ofBits (F := Ideal) .f32 0x3727C5AC#32)))) broadcasts_S256x1_S256x1024 (ix2 p q)
        * broadcastTo S256x1024 (shapeCast S1x1024 γ shapeCasts_S1x1024_S1x1024) broadcasts_S1x1024_S256x1024 (ix2 p q)
      + broadcastTo S256x1024 (shapeCast S1x1024 β shapeCasts_S1x1024_S1x1024) broadcasts_S1x1024_S256x1024 (ix2 p q) = _
  rw [bcast_col, bcast_col, shapeCast_self, shapeCast_self, bcast_row (by decide), bcast_row (by decide)]
  rfl

/-! ## The two stored blocks -/

section Stored
variable (P0 P1 : FVec Ideal S256x1024 .f32) (P2 P3 : FVec Ideal S1024x4096 .bf16) (P4 : FVec Ideal S1x4096 .f32)
  (P5 : FVec Ideal S256x1 .f32) (P6 : FVec Ideal S256x1024 .f32) (P7 P8 : FVec Ideal S1x1024 .f32)

/-- The gate pre-activations of block row `p` are the row-level `gates` of row `p` of the loaded blocks. -/
theorem gates_row (p : Fin 256) :
    (fun j => k0_pay3 (F := Ideal) P0 P1 P2 P3 P4 (ix2 p j))
      = gates (fun k => P0 (ix2 p k)) (fun k => P1 (ix2 p k)) (fun k j => P2 (ix2 k j)) (fun k j => P3 (ix2 k j)) (fun j => P4 (ix2 0 j)) :=
  funext fun j => pay3_at P0 P1 P2 P3 P4 p j

/-- The cell state before normalisation of block row `p`. -/
theorem cell_row (p : Fin 256) :
    (fun q => k0_pay5 (F := Ideal) P0 P1 P2 P3 P4 P5 P6 (ix2 p q))
      = cellAt (gates (fun k => P0 (ix2 p k)) (fun k => P1 (ix2 p k)) (fun k j => P2 (ix2 k j)) (fun k j => P3 (ix2 k j)) (fun j => P4 (ix2 0 j)))
          (P5 (ix2 p 0)) (fun q' => P6 (ix2 p q')) :=
  funext fun q => (pay5_at P0 P1 P2 P3 P4 P5 P6 p q).trans (by rw [gates_row])

/-- THE CELL-STATE BLOCK the body stores: entry (p, q) is the new cell state of row `p` at column `q`. -/
theorem cell_block (p : Fin 256) (q : Fin 1024) :
    k0_pay1 (F := Ideal) (k0_pay5 (F := Ideal) P0 P1 P2 P3 P4 P5 P6) (k0_pay6 (F := Ideal) P0 P1 P2 P3 P4 P5 P6) (k0_pay7 (F := Ideal) P0 P1 P2 P3 P4 P5 P6) P7 P8 (ix2 p q)
      = newCell (fun k => P0 (ix2 p k)) (fun k => P1 (ix2 p k)) (fun q' => P6 (ix2 p q')) (P5 (ix2 p 0))
          (fun k j => P2 (ix2 k j)) (fun k j => P3 (ix2 k j)) (fun j => P4 (ix2 0 j)) (fun q' => P7 (ix2 0 q')) (fun q' => P8 (ix2 0 q')) q := by
  rw [pay1_at, pay6_at, pay7_at, cell_row,
    show k0_pay5 (F := Ideal) P0 P1 P2 P3 P4 P5 P6 (ix2 p q) = _ from congrFun (cell_row P0 P1 P2 P3 P4 P5 P6 p) q]
  rfl

/-- THE HIDDEN-STATE BLOCK the body stores: entry (p, q) is the new hidden state of row `p` at column `q`. -/
theorem hidden_block (p : Fin 256) (q : Fin 1024) :
    k0_pay2 (F := Ideal) (k0_pay4 (F := Ideal) P0 P1 P2 P3 P4) (k0_pay5 (F := Ideal) P0 P1 P2 P3 P4 P5 P6) (k0_pay6 (F := Ideal) P0 P1 P2 P3 P4 P5 P6) (k0_pay7 (F := Ideal) P0 P1 P2 P3 P4 P5 P6) P7 P8 (ix2 p q)
      = newHidden (fun k => P0 (ix2 p k)) (fun k => P1 (ix2 p k)) (fun q' => P6 (ix2 p q')) (P5 (ix2 p 0))
          (fun k j => P2 (ix2 k j)) (fun k j => P3 (ix2 k j)) (fun j => P4 (ix2 0 j)) (fun q' => P7 (ix2 0 q')) (fun q' => P8 (ix2 0 q')) q := by
  unfold k0_pay2 k0_pay4 newHidden
  show Ideal.logistic (extractStridedSlice S256x1024 ![0, 3072] (k0_pay3 (F := Ideal) P0 P1 P2 P3 P4) slices_S256x4096_o0_3072_S256x1024 (ix2 p q))
      * Ideal.tanh (k0_pay1 (F := Ideal) (k0_pay5 (F := Ideal) P0 P1 P2 P3 P4 P5 P6) (k0_pay6 (F := Ideal) P0 P1 P2 P3 P4 P5 P6) (k0_pay7 (F := Ideal) P0 P1 P2 P3 P4 P5 P6) P7 P8 (ix2 p q)) = _
  rw [slice_cols 3072 (by omega), cell_block, congrFun (gates_row P0 P1 P2 P3 P4 p) (col 3072 (by omega) q)]

end Stored

end Cert.Lstm.Block

end
-- ==== Proof.KernelValue.lean ====
/-
  The kernel's two result arrays after its run, as the functions of Cell.lean of the eight argument arrays.

  The grid has 32 points; point `t` stages rows 256·t … 256·t + 255 of `x`, `h_prev`, `c_prev` and of the
  forget mask (recast as a column), and the whole of the two weight halves, the bias, the scale and the shift
  (recast as one-row matrices). The weight halves are the upper and lower 1024 rows of `W` with their format
  changed, which is the identity on extended reals. What point `t` writes back is rows 256·t … of the two
  results, and the 32 blocks tile the 8192 rows.
-/
import proofs.«139014_j58866821759063_1_alg».proof.Proof.Gen.KernelIdeal.Value
import proofs.«139014_j58866821759063_1_alg».proof.Proof.Block
import Idealize.ShloMosaic.Lib.Pipeline.Value
import Idealize.ShloMosaic.Lib.StableHlo.Run
import Idealize.ShloMosaic.Lib.Tactic

noncomputable section

open scoped BigOperators

namespace Cert.Lstm.Kernel

open Cert.KernelIdeal Cert.KernelIdeal.Gen Cert.KernelIdeal.Value Idealize.ShloMosaic Idealize.ShloMosaic.TcCoe Idealize.SL.Sem
open Idealize.ShloMosaic.ValueIdx Cert.Lstm
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- Batch row `256·t + p`: row `p` of the block point `t` works on. -/
def row (t : Fin cfg0.N) (p : Fin 256) : Fin 8192 :=
  ⟨256 * t.val + p.val, by have ht := t.isLt; have hN : cfg0.N = 32 := N_0; have hp := p.isLt; omega⟩

/-- The printed index maps over the grid: the row-blocked windows are at block row `t`, column block 0; the
    whole-array windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-! ## The arrays the host operations write before the region -/

/-- The upper weight half as the region finds it: the first 1024 rows of `W`, format changed. -/
theorem V_wx (c : Dev nD) : (V m c main_v1 : S1024x4096.Idx → EReal)
    = truncf (F := Ideal) .bf16 (extractStridedSlice S1024x4096 ![0, 0] (m ((c : Thread nD τ).loc main_arg4) : S2048x4096.Idx → EReal) slices_S2048x4096_S1024x4096_0_0) bitsLt_bf16_f32 := by
  dsimp only [Gen.V, Gen.hostOps0]; after_results

/-- The lower weight half: the last 1024 rows of `W`, format changed. -/
theorem V_wh (c : Dev nD) : (V m c main_v3 : S1024x4096.Idx → EReal)
    = truncf (F := Ideal) .bf16 (extractStridedSlice S1024x4096 ![1024, 0] (m ((c : Thread nD τ).loc main_arg4) : S2048x4096.Idx → EReal) slices_S2048x4096_S1024x4096_1024_0) bitsLt_bf16_f32 := by
  dsimp only [Gen.V, Gen.hostOps0]; after_results

/-- The bias as a one-row matrix. -/
theorem V_b (c : Dev nD) : (V m c main_v4 : S1x4096.Idx → EReal)
    = shapeCast S1x4096 (m ((c : Thread nD τ).loc main_arg5) : S4096.Idx → EReal) shapeCasts_S4096_S1x4096 := by
  dsimp only [Gen.V, Gen.hostOps0]; after_results; rfl

/-- The scale as a one-row matrix. -/
theorem V_g (c : Dev nD) : (V m c main_v5 : S1x1024.Idx → EReal)
    = shapeCast S1x1024 (m ((c : Thread nD τ).loc main_arg6) : S1024.Idx → EReal) shapeCasts_S1024_S1x1024 := by
  dsimp only [Gen.V, Gen.hostOps0]; after_results; rfl

/-- The shift as a one-row matrix. -/
theorem V_beta (c : Dev nD) : (V m c main_v6 : S1x1024.Idx → EReal)
    = shapeCast S1x1024 (m ((c : Thread nD τ).loc main_arg7) : S1024.Idx → EReal) shapeCasts_S1024_S1x1024 := by
  dsimp only [Gen.V, Gen.hostOps0]; after_results; rfl

/-- The forget mask as a column. -/
theorem V_fm (c : Dev nD) : (V m c main_v7 : S8192x1.Idx → EReal)
    = shapeCast S8192x1 (m ((c : Thread nD τ).loc main_arg3) : S8192.Idx → EReal) shapeCasts_S8192_S8192x1 := by
  dsimp only [Gen.V, Gen.hostOps0]; after_results; rfl

/-! ## Each staged block read off the argument arrays -/

/-- Row `p` of the block of `x` at point `t` is batch row `256·t + p` of `x`. -/
theorem x_at (c : Dev nD) (t : Fin cfg0.N) (p : Fin 256) (k : Fin 1024) :
    (iblk m c 0 t : Vec Ideal S256x1024 .f32) (ix2 p k) = (m ((c : Thread nD τ).loc main_arg0) : S8192x1024.Idx → EReal) (ix2 (row t p) k) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 256 + 1 * p.val = 256 * t.val + p.val; rw [e0]; omega
  | ⟨1, _⟩ => show win0_0.index t (1 : Fin 2) * 1024 + 1 * k.val = k.val; rw [e1]; omega

/-- Row `p` of the block of `h_prev` at point `t` is batch row `256·t + p` of `h_prev`. -/
theorem h_at (c : Dev nD) (t : Fin cfg0.N) (p : Fin 256) (k : Fin 1024) :
    (iblk m c 1 t : Vec Ideal S256x1024 .f32) (ix2 p k) = (m ((c : Thread nD τ).loc main_arg1) : S8192x1024.Idx → EReal) (ix2 (row t p) k) := by
  obtain ⟨-, -, e0, e1, -⟩ := idx_facts t
  unfold iblk
  rw [View.read_apply]
  show V m c main_arg1 _ = _
  rw [V_main_arg1]
  congr 1
  funext a
  apply Fin.ext
  match a with
  | ⟨0, _⟩ => show win0_1.index t (0 : Fin 2) * 256 + 1 * p.val = 256 * t.val + p.val; rw [e0]; omega
  | ⟨1, _⟩ => show win0_1.index t (1 : Fin 2) * 1024 + 1 * k.val = k.val; rw [e1]; omega

/-- Row `p` of the block of `c_prev` at point `t` is batch row `256·t + p` of `c_prev`. -/
theorem c_at (c : Dev nD) (t : Fin cfg0.N) (p : Fin 256) (k : Fin 1024) :
    (iblk m c 2 t : Vec Ideal S256x1024 .f32) (ix2 p k) = (m ((c : Thread nD τ).loc main_arg2) : S8192x1024.Idx → EReal) (ix2 (row t p) k) := by
  obtain ⟨-, -, -, -, e0, e1, -⟩ := idx_facts t
  unfold iblk
  rw [View.read_apply]
  show V m c main_arg2 _ = _
  rw [V_main_arg2]
  congr 1
  funext a
  apply Fin.ext
  match a with
  | ⟨0, _⟩ => show win0_2.index t (0 : Fin 2) * 256 + 1 * p.val = 256 * t.val + p.val; rw [e0]; omega
  | ⟨1, _⟩ => show win0_2.index t (1 : Fin 2) * 1024 + 1 * k.val = k.val; rw [e1]; omega

/-- Entry `p` of the mask column block at point `t` is the forget mask of batch row `256·t + p`. -/
theorem fm_at (c : Dev nD) (t : Fin cfg0.N) (p : Fin 256) :
    (iblk m c 3 t : Vec Ideal S256x1 .f32) (ix2 p 0) = (m ((c : Thread nD τ).loc main_arg3) : S8192.Idx → EReal) (ix1 (row t p)) := by
  obtain ⟨-, -, -, -, -, -, e0, e1, -⟩ := idx_facts t
  unfold iblk
  rw [View.read_apply]
  show (V m c main_v7 : S8192x1.Idx → EReal) _ = _
  rw [V_fm]
  refine shapeCast_apply _ _ _ (ix1 (row t p)) ?_
  rw [Shape.rowMajor_val_one, Shape.rowMajor_val_two]
  show 256 * t.val + p.val = (win0_3.index t (0 : Fin 2) * 256 + 1 * p.val) * 1 + (win0_3.index t (1 : Fin 2) * 1 + 1 * 0)
  rw [e0, e1]; omega

/-- The staged upper weight half is rows 0 … 1023 of `W`. -/
theorem wx_at (c : Dev nD) (t : Fin cfg0.N) (k : Fin 1024) (j : Fin 4096) :
    (iblk m c 4 t : Vec Ideal S1024x4096 .bf16) (ix2 k j) = (m ((c : Thread nD τ).loc main_arg4) : S2048x4096.Idx → EReal) (ix2 (up k) j) := by
  obtain ⟨-, -, -, -, -, -, -, -, e0, e1, -⟩ := idx_facts t
  unfold iblk
  rw [View.read_apply]
  show (V m c main_v1 : S1024x4096.Idx → EReal) _ = _
  rw [V_wx]
  show extractStridedSlice S1024x4096 ![0, 0] (m ((c : Thread nD τ).loc main_arg4) : S2048x4096.Idx → EReal) slices_S2048x4096_S1024x4096_0_0 _ = _
  refine extractStridedSlice_apply ![0, 0] _ slices_S2048x4096_S1024x4096_0_0 _ (ix2 (up k) j) fun a => ?_
  match a with
  | ⟨0, _⟩ => show k.val = 0 + (win0_4.index t (0 : Fin 2) * 1024 + 1 * k.val); rw [e0]; omega
  | ⟨1, _⟩ => show j.val = 0 + (win0_4.index t (1 : Fin 2) * 4096 + 1 * j.val); rw [e1]; omega

/-- The staged lower weight half is rows 1024 … 2047 of `W`. -/
theorem wh_at (c : Dev nD) (t : Fin cfg0.N) (k : Fin 1024) (j : Fin 4096) :
    (iblk m c 5 t : Vec Ideal S1024x4096 .bf16) (ix2 k j) = (m ((c : Thread nD τ).loc main_arg4) : S2048x4096.Idx → EReal) (ix2 (lo k) j) := by
  obtain ⟨-, -, -, -, -, -, -, -, -, -, e0, e1, -⟩ := idx_facts t
  unfold iblk
  rw [View.read_apply]
  show (V m c main_v3 : S1024x4096.Idx → EReal) _ = _
  rw [V_wh]
  show extractStridedSlice S1024x4096 ![1024, 0] (m ((c : Thread nD τ).loc main_arg4) : S2048x4096.Idx → EReal) slices_S2048x4096_S1024x4096_1024_0 _ = _
  refine extractStridedSlice_apply ![1024, 0] _ slices_S2048x4096_S1024x4096_1024_0 _ (ix2 (lo k) j) fun a => ?_
  match a with
  | ⟨0, _⟩ => show 1024 + k.val = 1024 + (win0_5.index t (0 : Fin 2) * 1024 + 1 * k.val); rw [e0]; omega
  | ⟨1, _⟩ => show j.val = 0 + (win0_5.index t (1 : Fin 2) * 4096 + 1 * j.val); rw [e1]; omega

/-- The staged bias row is the bias. -/
theorem b_at (c : Dev nD) (t : Fin cfg0.N) (j : Fin 4096) :
    (iblk m c 6 t : Vec Ideal S1x4096 .f32) (ix2 0 j) = (m ((c : Thread nD τ).loc main_arg5) : S4096.Idx → EReal) (ix1 j) := by
  obtain ⟨-, -, -, -, -, -, -, -, -, -, -, -, e0, e1, -⟩ := idx_facts t
  unfold iblk
  rw [View.read_apply]
  show (V m c main_v4 : S1x4096.Idx → EReal) _ = _
  rw [V_b]
  refine shapeCast_apply _ _ _ (ix1 j) ?_
  rw [Shape.rowMajor_val_one, Shape.rowMajor_val_two]
  show j.val = (win0_6.index t (0 : Fin 2) * 1 + 1 * 0) * 4096 + (win0_6.index t (1 : Fin 2) * 4096 + 1 * j.val)
  rw [e0, e1]; omega

/-- The staged scale row is the scale. -/
theorem g_at (c : Dev nD) (t : Fin cfg0.N) (q : Fin 1024) :
    (iblk m c 7 t : Vec Ideal S1x1024 .f32) (ix2 0 q) = (m ((c : Thread nD τ).loc main_arg6) : S1024.Idx → EReal) (ix1 q) := by
  obtain ⟨-, -, -, -, -, -, -, -, -, -, -, -, -, -, e0, e1, -⟩ := idx_facts t
  unfold iblk
  rw [View.read_apply]
  show (V m c main_v5 : S1x1024.Idx → EReal) _ = _
  rw [V_g]
  refine shapeCast_apply _ _ _ (ix1 q) ?_
  rw [Shape.rowMajor_val_one, Shape.rowMajor_val_two]
  show q.val = (win0_7.index t (0 : Fin 2) * 1 + 1 * 0) * 1024 + (win0_7.index t (1 : Fin 2) * 1024 + 1 * q.val)
  rw [e0, e1]; omega

/-- The staged shift row is the shift. -/
theorem beta_at (c : Dev nD) (t : Fin cfg0.N) (q : Fin 1024) :
    (iblk m c 8 t : Vec Ideal S1x1024 .f32) (ix2 0 q) = (m ((c : Thread nD τ).loc main_arg7) : S1024.Idx → EReal) (ix1 q) := by
  obtain ⟨-, -, -, -, -, -, -, -, -, -, -, -, -, -, -, -, e0, e1, -⟩ := idx_facts t
  unfold iblk
  rw [View.read_apply]
  show (V m c main_v6 : S1x1024.Idx → EReal) _ = _
  rw [V_beta]
  refine shapeCast_apply _ _ _ (ix1 q) ?_
  rw [Shape.rowMajor_val_one, Shape.rowMajor_val_two]
  show q.val = (win0_8.index t (0 : Fin 2) * 1 + 1 * 0) * 1024 + (win0_8.index t (1 : Fin 2) * 1024 + 1 * q.val)
  rw [e0, e1]; omega

/-! ## What each point writes back, and the two arrays after the run -/

/-- The eight argument arrays of core `c`, as launched. -/
abbrev aX (c : Dev nD) : S8192x1024.Idx → EReal := m ((c : Thread nD τ).loc main_arg0)
abbrev aH (c : Dev nD) : S8192x1024.Idx → EReal := m ((c : Thread nD τ).loc main_arg1)
abbrev aC (c : Dev nD) : S8192x1024.Idx → EReal := m ((c : Thread nD τ).loc main_arg2)
abbrev aFM (c : Dev nD) : S8192.Idx → EReal := m ((c : Thread nD τ).loc main_arg3)
abbrev aW (c : Dev nD) : S2048x4096.Idx → EReal := m ((c : Thread nD τ).loc main_arg4)
abbrev aB (c : Dev nD) : S4096.Idx → EReal := m ((c : Thread nD τ).loc main_arg5)
abbrev aG (c : Dev nD) : S1024.Idx → EReal := m ((c : Thread nD τ).loc main_arg6)
abbrev aBeta (c : Dev nD) : S1024.Idx → EReal := m ((c : Thread nD τ).loc main_arg7)

/-- Point `t` writes back rows 256·t … 256·t + 255 of the new cell state. -/
theorem flushed_cell (c : Dev nD) (t : Fin cfg0.N) :
    (dats m 0 c).flushed 10 t = ((cfg0.win 10).blk t).view.read (Elt Ideal)
      (cellArr (aX m c) (aH m c) (aC m c) (aFM m c) (aW m c) (aB m c) (aG m c) (aBeta m c)) := by
  rw [Value.flushed10]
  unfold out0_10
  rw [View.canon_unit_zero hz]
  simp only [View.ld_unit_zero (S := S256x1024) hz, View.ld_unit_zero (S := S1024x4096) hz, View.ld_unit_zero (S := S1x4096) hz,
    View.ld_unit_zero (S := S256x1) hz, View.ld_unit_zero (S := S1x1024) hz]
  obtain ⟨-, -, -, -, -, -, -, -, -, -, -, -, -, -, -, -, -, -, -, -, e0, e1⟩ := idx_facts t
  funext y
  obtain ⟨p, q, rfl⟩ : ∃ (p : Fin 256) (q : Fin 1024), y = ix2 p q := ⟨y 0, y 1, eq_ix2 y⟩
  have e : ((cfg0.win 10).blk t).view.emb (ix2 p q) = ix2 (row t p) q := funext fun a => Fin.ext (by
    match a with
    | ⟨0, _⟩ => show win0_10.index t (0 : Fin 2) * 256 + 1 * p.val = 256 * t.val + p.val; rw [e0]; omega
    | ⟨1, _⟩ => show win0_10.index t (1 : Fin 2) * 1024 + 1 * q.val = q.val; rw [e1]; omega)
  show k0_pay1 (F := Ideal) (k0_pay5 (F := Ideal) (iblk m c 0 t) (iblk m c 1 t) (iblk m c 4 t) (iblk m c 5 t) (iblk m c 6 t) (iblk m c 3 t) (iblk m c 2 t))
      (k0_pay6 (F := Ideal) (iblk m c 0 t) (iblk m c 1 t) (iblk m c 4 t) (iblk m c 5 t) (iblk m c 6 t) (iblk m c 3 t) (iblk m c 2 t))
      (k0_pay7 (F := Ideal) (iblk m c 0 t) (iblk m c 1 t) (iblk m c 4 t) (iblk m c 5 t) (iblk m c 6 t) (iblk m c 3 t) (iblk m c 2 t))
      (iblk m c 7 t) (iblk m c 8 t) (ix2 p q)
    = cellArr (aX m c) (aH m c) (aC m c) (aFM m c) (aW m c) (aB m c) (aG m c) (aBeta m c) (((cfg0.win 10).blk t).view.emb (ix2 p q))
  rw [e, Block.cell_block]
  unfold cellArr
  simp only [x_at, h_at, c_at, fm_at, wx_at, wh_at, b_at, g_at, beta_at]

/-- Point `t` writes back rows 256·t … 256·t + 255 of the new hidden state. -/
theorem flushed_hidden (c : Dev nD) (t : Fin cfg0.N) :
    (dats m 0 c).flushed 9 t = ((cfg0.win 9).blk t).view.read (Elt Ideal)
      (hiddenArr (aX m c) (aH m c) (aC m c) (aFM m c) (aW m c) (aB m c) (aG m c) (aBeta m c)) := by
  rw [Value.flushed9]
  unfold out0_9
  rw [View.canon_unit_zero hz]
  simp only [View.ld_unit_zero (S := S256x1024) hz, View.ld_unit_zero (S := S1024x4096) hz, View.ld_unit_zero (S := S1x4096) hz,
    View.ld_unit_zero (S := S256x1) hz, View.ld_unit_zero (S := S1x1024) hz]
  obtain ⟨-, -, -, -, -, -, -, -, -, -, -, -, -, -, -, -, -, -, e0, e1, -⟩ := idx_facts t
  funext y
  obtain ⟨p, q, rfl⟩ : ∃ (p : Fin 256) (q : Fin 1024), y = ix2 p q := ⟨y 0, y 1, eq_ix2 y⟩
  have e : ((cfg0.win 9).blk t).view.emb (ix2 p q) = ix2 (row t p) q := funext fun a => Fin.ext (by
    match a with
    | ⟨0, _⟩ => show win0_9.index t (0 : Fin 2) * 256 + 1 * p.val = 256 * t.val + p.val; rw [e0]; omega
    | ⟨1, _⟩ => show win0_9.index t (1 : Fin 2) * 1024 + 1 * q.val = q.val; rw [e1]; omega)
  show k0_pay2 (F := Ideal) (k0_pay4 (F := Ideal) (iblk m c 0 t) (iblk m c 1 t) (iblk m c 4 t) (iblk m c 5 t) (iblk m c 6 t))
      (k0_pay5 (F := Ideal) (iblk m c 0 t) (iblk m c 1 t) (iblk m c 4 t) (iblk m c 5 t) (iblk m c 6 t) (iblk m c 3 t) (iblk m c 2 t))
      (k0_pay6 (F := Ideal) (iblk m c 0 t) (iblk m c 1 t) (iblk m c 4 t) (iblk m c 5 t) (iblk m c 6 t) (iblk m c 3 t) (iblk m c 2 t))
      (k0_pay7 (F := Ideal) (iblk m c 0 t) (iblk m c 1 t) (iblk m c 4 t) (iblk m c 5 t) (iblk m c 6 t) (iblk m c 3 t) (iblk m c 2 t))
      (iblk m c 7 t) (iblk m c 8 t) (ix2 p q)
    = hiddenArr (aX m c) (aH m c) (aC m c) (aFM m c) (aW m c) (aB m c) (aG m c) (aBeta m c) (((cfg0.win 9).blk t).view.emb (ix2 p q))
  rw [e, Block.hidden_block]
  unfold hiddenArr
  simp only [x_at, h_at, c_at, fm_at, wx_at, wh_at, b_at, g_at, beta_at]

/-- Batch row `r` lies in the block of point `r / 256`. -/
def pointOf (i : S8192x1024.Idx) : Fin cfg0.N :=
  ⟨(i 0).val / 256, by have h := (i 0).isLt; have hN : cfg0.N = 32 := N_0; rw [hN]; show (i 0).val / 256 < 32; have : (i 0).val < 8192 := h; omega⟩

/-- The new cell state array after the run. -/
theorem final_cell (c : Dev nD) :
    (dats m 0 c).arrAt 10 cfg0.N = cellArr (aX m c) (aH m c) (aC m c) (aFM m c) (aW m c) (aB m c) (aG m c) (aBeta m c) :=
  (dats m 0 c).arrAt_eq_of_cover 10 _ (fun t _ => flushed_cell m c t) fun i =>
    ⟨pointOf i, flush0_10 _, by
      obtain ⟨-, -, -, -, -, -, -, -, -, -, -, -, -, -, -, -, -, -, -, -, e0, e1⟩ := idx_facts (pointOf i)
      show i ∈ ((View.whole main_v8_1).slice (win0_10.rect (pointOf i))).set
      rw [View.set_slice_whole, Rect.mem_set_unit]
      intro a
      have h0 : (i 0).val < 8192 := (i 0).isLt
      have h1 : (i 1).val < 1024 := (i 1).isLt
      match a with
      | ⟨0, _⟩ => show win0_10.index (pointOf i) (0 : Fin 2) * 256 ≤ (i 0).val ∧ (i 0).val < win0_10.index (pointOf i) (0 : Fin 2) * 256 + 256
                  rw [e0]; show (i 0).val / 256 * 256 ≤ (i 0).val ∧ (i 0).val < (i 0).val / 256 * 256 + 256; omega
      | ⟨1, _⟩ => show win0_10.index (pointOf i) (1 : Fin 2) * 1024 ≤ (i 1).val ∧ (i 1).val < win0_10.index (pointOf i) (1 : Fin 2) * 1024 + 1024
                  rw [e1]; omega⟩

/-- The new hidden state array after the run. -/
theorem final_hidden (c : Dev nD) :
    (dats m 0 c).arrAt 9 cfg0.N = hiddenArr (aX m c) (aH m c) (aC m c) (aFM m c) (aW m c) (aB m c) (aG m c) (aBeta m c) :=
  (dats m 0 c).arrAt_eq_of_cover 9 _ (fun t _ => flushed_hidden m c t) fun i =>
    ⟨pointOf i, flush0_9 _, by
      obtain ⟨-, -, -, -, -, -, -, -, -, -, -, -, -, -, -, -, -, -, e0, e1, -⟩ := idx_facts (pointOf i)
      show i ∈ ((View.whole main_v8_0).slice (win0_9.rect (pointOf i))).set
      rw [View.set_slice_whole, Rect.mem_set_unit]
      intro a
      have h0 : (i 0).val < 8192 := (i 0).isLt
      have h1 : (i 1).val < 1024 := (i 1).isLt
      match a with
      | ⟨0, _⟩ => show win0_9.index (pointOf i) (0 : Fin 2) * 256 ≤ (i 0).val ∧ (i 0).val < win0_9.index (pointOf i) (0 : Fin 2) * 256 + 256
                  rw [e0]; show (i 0).val / 256 * 256 ≤ (i 0).val ∧ (i 0).val < (i 0).val / 256 * 256 + 256; omega
      | ⟨1, _⟩ => show win0_9.index (pointOf i) (1 : Fin 2) * 1024 ≤ (i 1).val ∧ (i 1).val < win0_9.index (pointOf i) (1 : Fin 2) * 1024 + 1024
                  rw [e1]; omega⟩

/-- The kernel's run, read: the two results at their functions of the arguments, the arguments unchanged. -/
theorem run : θ_run defs (onTc (τ := τ) (main (F := Ideal))) ⟨m, fun _ => 0, ρ⟩ fun r => ∀ c : Dev nD,
      r.2.mem ((c : Thread nD τ).loc main_v8_0) = hiddenArr (aX m c) (aH m c) (aC m c) (aFM m c) (aW m c) (aB m c) (aG m c) (aBeta m c)
      ∧ r.2.mem ((c : Thread nD τ).loc main_v8_1) = cellArr (aX m c) (aH m c) (aC m c) (aFM m c) (aW m c) (aB m c) (aG m c) (aBeta m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final_hidden m c), (h c).2.1.trans (final_cell m c), (h c).2.2⟩)
    (Value.run_blocks m ρ)

end Cert.Lstm.Kernel

end
-- ==== Proof.RefValue.lean ====
/-
  The reference program, read index by index, is the row-level mathematics of the specification.

  The joined row (x | h) against a whole weight column plus the bias entry is one gate pre-activation; the four
  column blocks of width 1024 are the input, forget, candidate and output gates. 1 / (1 + e^(-y)) is the logistic
  function. The cell before normalisation is  σ(f)·mask·c + σ(i)·tanh(g) ; its row mean and its row sum of squared
  deviations are sums that start from 0; the normalised cell is the new cell state and σ(o)·tanh of it the new
  hidden state.
-/
import proofs.«139014_j58866821759063_1_alg».proof.Proof.Gen.ReferenceIdeal.Read
import proofs.«139014_j58866821759063_1_alg».proof.Proof.Cell
import Idealize.ShloMosaic.Lib.Pipeline.Value
import Idealize.ShloMosaic.Lib.ValueIdx
import Idealize.ShloMosaic.PureOps.Ideal.Laws

noncomputable section

open scoped BigOperators

namespace Cert.Lstm.Ref

open Cert.ReferenceIdeal Cert.ReferenceIdeal.Gen Cert.ReferenceIdeal.Read Idealize.ShloMosaic Idealize.ShloMosaic.ValueIdx

/-- The eight argument arrays' types, named once. -/
abbrev ArrBH := (⟨S8192x1024, .f32⟩ : BufTy).Contents (Elt Ideal)
abbrev ArrB := (⟨S8192, .f32⟩ : BufTy).Contents (Elt Ideal)
abbrev ArrW := (⟨S2048x4096, .f32⟩ : BufTy).Contents (Elt Ideal)
abbrev ArrG := (⟨S4096, .f32⟩ : BufTy).Contents (Elt Ideal)
abbrev ArrH := (⟨S1024, .f32⟩ : BufTy).Contents (Elt Ideal)

/-! ## The joined row -/

/-- The first 1024 entries of the joined row are the row of `x`. -/
theorem joined_up (x0 x1 : ArrBH) (r : Fin 8192) (k : Fin 1024) :
    val_main_v0 (F := Ideal) x0 x1 (ix2 r (up k)) = x0 (ix2 r k) := by
  unfold val_main_v0
  exact concatenate_pair_apply_left 1 x0 x1 _ (ix2 r (up k)) rfl (ix2 r k)
    (fun b => by match b with | ⟨0, _⟩ => rfl | ⟨1, _⟩ => rfl)

/-- The last 1024 entries of the joined row are the row of `h`. -/
theorem joined_lo (x0 x1 : ArrBH) (r : Fin 8192) (k : Fin 1024) :
    val_main_v0 (F := Ideal) x0 x1 (ix2 r (lo k)) = x1 (ix2 r k) := by
  unfold val_main_v0
  exact concatenate_pair_apply_right 1 x0 x1 _ (ix2 r (lo k)) rfl rfl (ix2 r k)
    (fun b hb => by
      match b, hb with
      | ⟨0, _⟩, _ => rfl
      | ⟨1, _⟩, hb => exact absurd rfl hb)
    (by show k.val + 1024 = 1024 + k.val; omega)

/-! ## The gate pre-activations -/

/-- The four gate pre-activations of batch row `r`. -/
def gateRow (x0 x1 : ArrBH) (x4 : ArrW) (x5 : ArrG) (r : Fin 8192) : Fin 4096 → EReal :=
  gates (fun k => x0 (ix2 r k)) (fun k => x1 (ix2 r k)) (fun k j => x4 (ix2 (up k) j)) (fun k j => x4 (ix2 (lo k) j))
    (fun j => x5 (ix1 j))

/-- The joined row against weight column `j`, plus bias entry `j`, is gate pre-activation `j`. -/
theorem gates_at (x0 x1 : ArrBH) (x4 : ArrW) (x5 : ArrG) (r : Fin 8192) (j : Fin 4096) :
    val_main_v4 (F := Ideal) x0 x1 x4 x5 (ix2 r j) = gateRow x0 x1 x4 x5 r j := by
  have hl : ∀ k, lidx_main_v1 (ix2 r j) k = ix2 r k := fun k => funext fun a => by
    match a with | ⟨0, _⟩ => rfl | ⟨1, _⟩ => rfl
  have hr : ∀ k, ridx_main_v1 (ix2 r j) k = ix2 k j := fun k => funext fun a => by
    match a with | ⟨0, _⟩ => rfl | ⟨1, _⟩ => rfl
  have hb : idx_main_v2 (idx_main_v3 (ix2 r j)) = ix1 j := funext fun a => by
    match a with | ⟨0, _⟩ => rfl
  rw [val_main_v4_apply, val_main_v1_apply, val_main_v3_apply, val_main_v2_apply, hb]
  simp only [hl, hr]
  exact gate_eq_joined (fun k => x0 (ix2 r k)) (fun k => x1 (ix2 r k)) (fun k => x4 (ix2 k j))
    (fun k => val_main_v0 (F := Ideal) x0 x1 (ix2 r k)) (x5 (ix1 j)) (joined_up x0 x1 r) (joined_lo x0 x1 r)

/-! ## The four column blocks -/

theorem block0_at (x0 x1 : ArrBH) (x4 : ArrW) (x5 : ArrG) (r : Fin 8192) (q : Fin 1024) :
    val_main_v5 (F := Ideal) x0 x1 x4 x5 (ix2 r q) = gateRow x0 x1 x4 x5 r (col 0 (by omega) q) := by
  have h : idx_main_v5 (ix2 r q) = ix2 r (col 0 (by omega) q) := funext fun a => by
    match a with
    | ⟨0, _⟩ => rfl
    | ⟨1, _⟩ => exact Fin.ext (by show q.val = 0 + q.val; omega)
  rw [val_main_v5_apply, h, gates_at]

theorem block1_at (x0 x1 : ArrBH) (x4 : ArrW) (x5 : ArrG) (r : Fin 8192) (q : Fin 1024) :
    val_main_v6 (F := Ideal) x0 x1 x4 x5 (ix2 r q) = gateRow x0 x1 x4 x5 r (col 1024 (by omega) q) := by
  have h : idx_main_v6 (ix2 r q) = ix2 r (col 1024 (by omega) q) := funext fun a => by
    match a with
    | ⟨0, _⟩ => rfl
    | ⟨1, _⟩ => rfl
  rw [val_main_v6_apply, h, gates_at]

theorem block2_at (x0 x1 : ArrBH) (x4 : ArrW) (x5 : ArrG) (r : Fin 8192) (q : Fin 1024) :
    val_main_v7 (F := Ideal) x0 x1 x4 x5 (ix2 r q) = gateRow x0 x1 x4 x5 r (col 2048 (by omega) q) := by
  have h : idx_main_v7 (ix2 r q) = ix2 r (col 2048 (by omega) q) := funext fun a => by
    match a with
    | ⟨0, _⟩ => rfl
    | ⟨1, _⟩ => rfl
  rw [val_main_v7_apply, h, gates_at]

theorem block3_at (x0 x1 : ArrBH) (x4 : ArrW) (x5 : ArrG) (r : Fin 8192) (q : Fin 1024) :
    val_main_v8 (F := Ideal) x0 x1 x4 x5 (ix2 r q) = gateRow x0 x1 x4 x5 r (col 3072 (by omega) q) := by
  have h : idx_main_v8 (ix2 r q) = ix2 r (col 3072 (by omega) q) := funext fun a => by
    match a with
    | ⟨0, _⟩ => rfl
    | ⟨1, _⟩ => rfl
  rw [val_main_v8_apply, h, gates_at]

/-! ## The logistic function -/

/-- The word 0x3F800000 is the number one. -/
theorem one_word : Ideal.ofBits .f32 0x3F800000#32 = 1 := by
  simp [Ideal.ofBits, Ideal.ieee, -EReal.coe_mul]; norm_num

/-- 1 / (1 + e^(-y)) is the logistic function of y. -/
theorem logistic_expanded (y : EReal) :
    Ideal.div (Ideal.ofBits .f32 0x3F800000#32) (Ideal.ofBits .f32 0x3F800000#32 + Ideal.exp (-y)) = Ideal.logistic y := by
  rw [one_word]; rfl

/-- The input gate. -/
theorem sig_i_at (x0 x1 : ArrBH) (x4 : ArrW) (x5 : ArrG) (r : Fin 8192) (q : Fin 1024) :
    val_main_v14 (F := Ideal) x0 x1 x4 x5 (ix2 r q) = Ideal.logistic (gateRow x0 x1 x4 x5 r (col 0 (by omega) q)) := by
  rw [val_main_v14_apply, val_main_v13_apply, val_main_cst_0_apply, val_main_v12_apply, val_main_v11_apply,
    val_main_cst_apply, val_main_v10_apply, val_main_v9_apply, block0_at]
  exact logistic_expanded _

/-- The forget gate. -/
theorem sig_f_at (x0 x1 : ArrBH) (x4 : ArrW) (x5 : ArrG) (r : Fin 8192) (q : Fin 1024) :
    val_main_v20 (F := Ideal) x0 x1 x4 x5 (ix2 r q) = Ideal.logistic (gateRow x0 x1 x4 x5 r (col 1024 (by omega) q)) := by
  rw [val_main_v20_apply, val_main_v19_apply, val_main_cst_2_apply, val_main_v18_apply, val_main_v17_apply,
    val_main_cst_1_apply, val_main_v16_apply, val_main_v15_apply, block1_at]
  exact logistic_expanded _

/-- The output gate. -/
theorem sig_o_at (x0 x1 : ArrBH) (x4 : ArrW) (x5 : ArrG) (r : Fin 8192) (q : Fin 1024) :
    val_main_v30 (F := Ideal) x0 x1 x4 x5 (ix2 r q) = Ideal.logistic (gateRow x0 x1 x4 x5 r (col 3072 (by omega) q)) := by
  rw [val_main_v30_apply, val_main_v29_apply, val_main_cst_4_apply, val_main_v28_apply, val_main_v27_apply,
    val_main_cst_3_apply, val_main_v26_apply, val_main_v25_apply, block3_at]
  exact logistic_expanded _

/-! ## The cell before normalisation -/

/-- Row `r` of the cell state before normalisation. -/
def cellRow (x0 x1 x2 : ArrBH) (x3 : ArrB) (x4 : ArrW) (x5 : ArrG) (r : Fin 8192) : Fin 1024 → EReal :=
  cellAt (gateRow x0 x1 x4 x5 r) (x3 (ix1 r)) (fun q => x2 (ix2 r q))

theorem cell_at (x0 x1 x2 : ArrBH) (x3 : ArrB) (x4 : ArrW) (x5 : ArrG) (r : Fin 8192) (q : Fin 1024) :
    val_main_v33 (F := Ideal) x0 x1 x2 x3 x4 x5 (ix2 r q) = cellRow x0 x1 x2 x3 x4 x5 r q := by
  have hm : idx_main_v21 (idx_main_v22 (ix2 r q)) = ix1 r := funext fun a => by
    match a with | ⟨0, _⟩ => rfl
  rw [val_main_v33_apply, val_main_v31_apply, val_main_v23_apply, val_main_v32_apply, val_main_v24_apply,
    val_main_v22_apply, val_main_v21_apply, hm, sig_f_at, sig_i_at, block2_at]
  rfl

/-! ## The row mean and the squared deviations -/

theorem rowsum_at (x0 x1 x2 : ArrBH) (x3 : ArrB) (x4 : ArrW) (x5 : ArrG) (r : Fin 8192) :
    val_main_v34 (F := Ideal) x0 x1 x2 x3 x4 x5 (ix1 r) = ∑ q : Fin 1024, cellRow x0 x1 x2 x3 x4 x5 r q := by
  have h : ∀ k, idx_main_v34 (ix1 r) k = ix2 r k := fun k => funext fun a => by
    match a with | ⟨0, _⟩ => rfl | ⟨1, _⟩ => rfl
  rw [val_main_v34_apply, val_main_cst_5_apply, Ideal.ofBits_def, Ideal.ofBits_zero_f32, zero_add]
  simp only [h, cell_at]

theorem mean_at (x0 x1 x2 : ArrBH) (x3 : ArrB) (x4 : ArrW) (x5 : ArrG) (r : Fin 8192) (z : Fin 1) :
    val_main_v37 (F := Ideal) x0 x1 x2 x3 x4 x5 (ix2 r z) = mean (cellRow x0 x1 x2 x3 x4 x5 r) := by
  have h : idx_main_v35 (ix2 r z) = ix1 r := funext fun a => by
    match a with | ⟨0, _⟩ => rfl
  rw [val_main_v37_apply, val_main_v35_apply, h, rowsum_at, val_main_v36_apply, val_main_cst_6_apply]
  rfl

theorem dev_at (x0 x1 x2 : ArrBH) (x3 : ArrB) (x4 : ArrW) (x5 : ArrG) (r : Fin 8192) (q : Fin 1024) :
    val_main_v39 (F := Ideal) x0 x1 x2 x3 x4 x5 (ix2 r q)
      = cellRow x0 x1 x2 x3 x4 x5 r q - mean (cellRow x0 x1 x2 x3 x4 x5 r) := by
  have h : idx_main_v38 (ix2 r q) = ix2 r (0 : Fin 1) := funext fun a => by
    match a with | ⟨0, _⟩ => rfl | ⟨1, _⟩ => rfl
  rw [val_main_v39_apply, val_main_v38_apply, h, mean_at, cell_at]
  rfl

theorem centred_at (x0 x1 x2 : ArrBH) (x3 : ArrB) (x4 : ArrW) (x5 : ArrG) (r : Fin 8192) (q : Fin 1024) :
    val_main_v46 (F := Ideal) x0 x1 x2 x3 x4 x5 (ix2 r q)
      = cellRow x0 x1 x2 x3 x4 x5 r q - mean (cellRow x0 x1 x2 x3 x4 x5 r) := by
  have h : idx_main_v45 (ix2 r q) = ix2 r (0 : Fin 1) := funext fun a => by
    match a with | ⟨0, _⟩ => rfl | ⟨1, _⟩ => rfl
  rw [val_main_v46_apply, val_main_v45_apply, h, mean_at, cell_at]
  rfl

theorem sqsum_at (x0 x1 x2 : ArrBH) (x3 : ArrB) (x4 : ArrW) (x5 : ArrG) (r : Fin 8192) :
    val_main_v41 (F := Ideal) x0 x1 x2 x3 x4 x5 (ix1 r) = sqDev (cellRow x0 x1 x2 x3 x4 x5 r) := by
  have h : ∀ k, idx_main_v41 (ix1 r) k = ix2 r k := fun k => funext fun a => by
    match a with | ⟨0, _⟩ => rfl | ⟨1, _⟩ => rfl
  rw [val_main_v41_apply, val_main_cst_7_apply, Ideal.ofBits_def, Ideal.ofBits_zero_f32, zero_add]
  simp only [h, val_main_v40_apply, dev_at]
  rfl

/-- The reciprocal root of the variance plus epsilon, of row `r`. -/
theorem scale_at (x0 x1 x2 : ArrBH) (x3 : ArrB) (x4 : ArrW) (x5 : ArrG) (r : Fin 8192) (z : Fin 1) :
    val_main_v49 (F := Ideal) x0 x1 x2 x3 x4 x5 (ix2 r z)
      = Ideal.rsqrt (Ideal.div (sqDev (cellRow x0 x1 x2 x3 x4 x5 r)) width + eps) := by
  have h : idx_main_v42 (ix2 r z) = ix1 r := funext fun a => by
    match a with | ⟨0, _⟩ => rfl
  rw [val_main_v49_apply, val_main_v48_apply, val_main_v44_apply, val_main_v42_apply, h, sqsum_at,
    val_main_v43_apply, val_main_cst_8_apply, val_main_v47_apply, val_main_cst_9_apply]
  rfl

/-! ## The two results -/

theorem newCell_at (x0 x1 x2 : ArrBH) (x3 : ArrB) (x4 : ArrW) (x5 : ArrG) (x6 x7 : ArrH) (r : Fin 8192) (q : Fin 1024) :
    val_main_v57 (F := Ideal) x0 x1 x2 x3 x4 x5 x6 x7 (ix2 r q)
      = layerNorm (cellRow x0 x1 x2 x3 x4 x5 r) (fun q => x6 (ix1 q)) (fun q => x7 (ix1 q)) q := by
  have hs : idx_main_v50 (ix2 r q) = ix2 r (0 : Fin 1) := funext fun a => by
    match a with | ⟨0, _⟩ => rfl | ⟨1, _⟩ => rfl
  have hg : idx_main_v52 (idx_main_v53 (ix2 r q)) = ix1 q := funext fun a => by
    match a with | ⟨0, _⟩ => rfl
  have hb : idx_main_v55 (idx_main_v56 (ix2 r q)) = ix1 q := funext fun a => by
    match a with | ⟨0, _⟩ => rfl
  rw [val_main_v57_apply, val_main_v54_apply, val_main_v51_apply, centred_at, val_main_v50_apply, hs, scale_at,
    val_main_v53_apply, val_main_v52_apply, hg, val_main_v56_apply, val_main_v55_apply, hb]
  rfl

theorem newHidden_at (x0 x1 x2 : ArrBH) (x3 : ArrB) (x4 : ArrW) (x5 : ArrG) (x6 x7 : ArrH) (r : Fin 8192) (q : Fin 1024) :
    val_main_v59 (F := Ideal) x0 x1 x2 x3 x4 x5 x6 x7 (ix2 r q)
      = Ideal.logistic (gateRow x0 x1 x4 x5 r (col 3072 (by omega) q))
          * Ideal.tanh (layerNorm (cellRow x0 x1 x2 x3 x4 x5 r) (fun q => x6 (ix1 q)) (fun q => x7 (ix1 q)) q) := by
  rw [val_main_v59_apply, val_main_v58_apply, sig_o_at, newCell_at]
  rfl

/-- The reference's second result is the new cell state array. -/
theorem cell_eq (x0 x1 x2 : (⟨S8192x1024, .f32⟩ : BufTy).Contents (Elt Ideal)) (x3 : (⟨S8192, .f32⟩ : BufTy).Contents (Elt Ideal)) (x4 : (⟨S2048x4096, .f32⟩ : BufTy).Contents (Elt Ideal)) (x5 : (⟨S4096, .f32⟩ : BufTy).Contents (Elt Ideal)) (x6 x7 : (⟨S1024, .f32⟩ : BufTy).Contents (Elt Ideal)) :
    Cert.ReferenceIdeal.Read.val_main_v57 (F := Ideal) x0 x1 x2 x3 x4 x5 x6 x7 = Cert.Lstm.cellArr x0 x1 x2 x3 x4 x5 x6 x7 := by
  funext i
  obtain ⟨r, q, rfl⟩ : ∃ (r : Fin 8192) (q : Fin 1024), i = ix2 r q := ⟨i 0, i 1, eq_ix2 i⟩
  exact newCell_at x0 x1 x2 x3 x4 x5 x6 x7 r q

/-- The reference's first result is the new hidden state array. -/
theorem hidden_eq (x0 x1 x2 : (⟨S8192x1024, .f32⟩ : BufTy).Contents (Elt Ideal)) (x3 : (⟨S8192, .f32⟩ : BufTy).Contents (Elt Ideal)) (x4 : (⟨S2048x4096, .f32⟩ : BufTy).Contents (Elt Ideal)) (x5 : (⟨S4096, .f32⟩ : BufTy).Contents (Elt Ideal)) (x6 x7 : (⟨S1024, .f32⟩ : BufTy).Contents (Elt Ideal)) :
    Cert.ReferenceIdeal.Read.val_main_v59 (F := Ideal) x0 x1 x2 x3 x4 x5 x6 x7 = Cert.Lstm.hiddenArr x0 x1 x2 x3 x4 x5 x6 x7 := by
  funext i
  obtain ⟨r, q, rfl⟩ : ∃ (r : Fin 8192) (q : Fin 1024), i = ix2 r q := ⟨i 0, i 1, eq_ix2 i⟩
  exact newHidden_at x0 x1 x2 x3 x4 x5 x6 x7 r q

end Cert.Lstm.Ref

end
-- ==== Proof.lean ====
/-
  The proof of `Cert.Claim`: an LSTM cell with layer normalisation of the cell state, as one fused kernel tiled over
  256 batch rows, against its plain reference — equal as extended reals, element by element.

  Both programs compute, for every batch row, the four gate pre-activations  x·W[0:1024] + h·W[1024:2048] + b , the
  cell state  σ(f)·mask·c + σ(i)·tanh(g)  normalised over the row, and the hidden state  σ(o)·tanh(new cell)
  (Proof/Cell.lean states this once). The kernel adds two half products where the reference multiplies the joined
  row (x | h) by the whole of W: one finite sum regrouped, true of all extended reals, so the precondition is never
  opened. The kernel's logistic operation is by definition 1 / (1 + e^(-y)), which the reference spells out; a
  change of float format is the identity; the row mean divides by the same word 1024.0 and the variance adds the
  same epsilon word on both sides.

  The kernel's side is Proof/Block.lean (the body on one block, element by element) and Proof/KernelValue.lean (the
  blocks of the 32 grid points tile the 8192 rows); the reference's side is Proof/RefValue.lean. The three frames are
  the generated frames and the reference's generated run; the idealization rewrote nothing, so `preserves` is `True`.
-/
import proofs.«139014_j58866821759063_1_alg».proof.Defs
import proofs.«139014_j58866821759063_1_alg».proof.Proof.Gen.Kernel
import proofs.«139014_j58866821759063_1_alg».proof.Proof.Gen.Kernel.Skeleton
import proofs.«139014_j58866821759063_1_alg».proof.Proof.Gen.Kernel.Launch
import proofs.«139014_j58866821759063_1_alg».proof.Proof.Gen.Kernel.Points
import proofs.«139014_j58866821759063_1_alg».proof.Proof.Gen.Kernel.Frame
import proofs.«139014_j58866821759063_1_alg».proof.Proof.Gen.KernelIdeal
import proofs.«139014_j58866821759063_1_alg».proof.Proof.Gen.KernelIdeal.Skeleton
import proofs.«139014_j58866821759063_1_alg».proof.Proof.Gen.KernelIdeal.Launch
import proofs.«139014_j58866821759063_1_alg».proof.Proof.Gen.KernelIdeal.Points
import proofs.«139014_j58866821759063_1_alg».proof.Proof.Gen.KernelIdeal.Frame
import proofs.«139014_j58866821759063_1_alg».proof.Proof.Gen.ReferenceIdeal
import proofs.«139014_j58866821759063_1_alg».proof.Proof.Gen.Pre_finite_inputs
import proofs.«139014_j58866821759063_1_alg».proof.Proof.Gen.KernelIdeal.Value
import proofs.«139014_j58866821759063_1_alg».proof.Proof.Gen.ReferenceIdeal.Run
import proofs.«139014_j58866821759063_1_alg».proof.Proof.Gen.ReferenceIdeal.Read
import proofs.«139014_j58866821759063_1_alg».proof.Proof.KernelValue
import proofs.«139014_j58866821759063_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories agreeing on the eight arguments, both programs end with the hidden-state array and the cell-state
    array of Cell.lean: the kernel block by block, the reference operation by operation. -/
theorem algebraic : Cert.algebraic_KernelIdeal_ReferenceIdeal := by
  intro m ρ m' ρ' _ hagree
  refine ⟨fun c => Cert.Lstm.hiddenArr (Cert.Lstm.Kernel.aX m c) (Cert.Lstm.Kernel.aH m c) (Cert.Lstm.Kernel.aC m c) (Cert.Lstm.Kernel.aFM m c)
      (Cert.Lstm.Kernel.aW m c) (Cert.Lstm.Kernel.aB m c) (Cert.Lstm.Kernel.aG m c) (Cert.Lstm.Kernel.aBeta m c),
    fun c => Cert.Lstm.cellArr (Cert.Lstm.Kernel.aX m c) (Cert.Lstm.Kernel.aH m c) (Cert.Lstm.Kernel.aC m c) (Cert.Lstm.Kernel.aFM m c)
      (Cert.Lstm.Kernel.aW m c) (Cert.Lstm.Kernel.aB m c) (Cert.Lstm.Kernel.aG m c) (Cert.Lstm.Kernel.aBeta m c),
    Cert.Lstm.Kernel.run m ρ, ?_⟩
  refine (θ_run Cert.ReferenceIdeal.defs _ _).mono (fun _ h c => ?_) (Cert.ReferenceIdeal.Value.run (F := Ideal) m' ρ')
  obtain ⟨a0, a1, a2, a3, a4, a5, a6, a7⟩ := hagree c
  refine ⟨(h c).1.trans ?_, (h c).2.1.trans ?_, (h c).2.2⟩
  · rw [Cert.ReferenceIdeal.Read.val_main_v59_eq, Cert.Lstm.Ref.hidden_eq, a0, a1, a2, a3, a4, a5, a6, a7]
  · rw [Cert.ReferenceIdeal.Read.val_main_v57_eq, Cert.Lstm.Ref.cell_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
